-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S4096x1 .f32 .bf16
  ∧ IdealRules.truncf_extf.Statement Cert.KernelIdeal.S4096x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x4096x1 : Shape := ⟨3, ![4, 4096, 1]⟩
abbrev S4x1x4096 : Shape := ⟨3, ![4, 1, 4096]⟩
abbrev S1x4096x3 : Shape := ⟨3, ![1, 4096, 3]⟩
abbrev S1x4096x1 : Shape := ⟨3, ![1, 4096, 1]⟩
abbrev S1x1x4096 : Shape := ⟨3, ![1, 1, 4096]⟩
abbrev S4096x3 : Shape := ⟨2, ![4096, 3]⟩
abbrev S4096x1 : Shape := ⟨2, ![4096, 1]⟩
abbrev S4096x2 : Shape := ⟨2, ![4096, 2]⟩
abbrev S4096x8 : Shape := ⟨2, ![4096, 8]⟩
abbrev S1024x8 : Shape := ⟨2, ![1024, 8]⟩
abbrev S4096x1024 : Shape := ⟨2, ![4096, 1024]⟩
abbrev S1024 : Shape := ⟨1, ![1024]⟩
abbrev S4096 : Shape := ⟨1, ![4096]⟩
abbrev S4x4096 : Shape := ⟨2, ![4, 4096]⟩

abbrev nBuf : Space → Nat
  | .hbm => 6
  | .vmem => 8
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x1, .f32⟩
  | .hbm, ⟨3, _⟩ => ⟨S4x1x4096, .f32⟩
  | .hbm, ⟨4, _⟩ => ⟨S4x4096, .f32⟩
  | .hbm, ⟨5, _⟩ => ⟨S4x4096, .f32⟩
  | .local _ .vmem, ⟨0, _⟩ => ⟨S1x4096x3, .f32⟩
  | .local _ .vmem, ⟨1, _⟩ => ⟨S1x4096x3, .f32⟩
  | .local _ .vmem, ⟨2, _⟩ => ⟨S1x4096x3, .f32⟩
  | .local _ .vmem, ⟨3, _⟩ => ⟨S1x4096x3, .f32⟩
  | .local _ .vmem, ⟨4, _⟩ => ⟨S1x4096x1, .f32⟩
  | .local _ .vmem, ⟨5, _⟩ => ⟨S1x4096x1, .f32⟩
  | .local _ .vmem, ⟨6, _⟩ => ⟨S1x1x4096, .f32⟩
  | .local _ .vmem, ⟨7, _⟩ => ⟨S1x1x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  slices_S4096x3_o0_0_S4096x1 : S4096x3.Slices ![0, 0] S4096x1
  slices_S4096x3_o0_1_S4096x1 : S4096x3.Slices ![0, 1] S4096x1
  slices_S4096x3_o0_2_S4096x1 : S4096x3.Slices ![0, 2] S4096x1
  bitsLt_bf16_f32 : FTy.bits .bf16 < FTy.bits .f32
  concatenates_S4096x3_S4096x1_S4096x1_S4096x2_S4096x1_S4096x8_d1 : Shape.Concatenates [S4096x3, S4096x1, S4096x1, S4096x2, S4096x1] S4096x8 1
  concatenates_S4096x3_S4096x2_S4096x1_S4096x1_S4096x1_S4096x8_d1 : Shape.Concatenates [S4096x3, S4096x2, S4096x1, S4096x1, S4096x1] S4096x8 1
  slices_S4096x8_o0_0_S1024x8 : S4096x8.Slices ![0, 0] S1024x8
  reduces_S4096x1024_S1024 : S4096x1024.Reduces [0] S1024
  slices_S4096x8_o1024_0_S1024x8 : S4096x8.Slices ![1024, 0] S1024x8
  slices_S4096x8_o2048_0_S1024x8 : S4096x8.Slices ![2048, 0] S1024x8
  slices_S4096x8_o3072_0_S1024x8 : S4096x8.Slices ![3072, 0] S1024x8
  reduces_S4096x1024_S4096 : S4096x1024.Reduces [1] S4096
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096 : S1x4096x1.ShapeCasts S4096
  shapeCasts_S4096_S1x4096x1 : S4096.ShapeCasts S1x4096x1
  concatenates_S1024_S1024_S1024_S1024_S4096_d0 : Shape.Concatenates [S1024, S1024, S1024, S1024] S4096 0
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S1x1x4096 : S4096.ShapeCasts S1x1x4096
  shapeCasts_S4x4096x1_S4x4096 : S4x4096x1.ShapeCasts S4x4096
  shapeCasts_S4x1x4096_S4x4096 : S4x1x4096.ShapeCasts S4x4096
  dot_S4096x8_S1024x8_S4096x1024_1_1_0_0_n_n_wf : DotDims.WF S4096x8 S1024x8 S4096x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S4x4096x3.size a
  hwx0_0 : ∀ i : grid0.Coords, EltTy.bits .f32 = 32 ∨ (Rect.block (s := S4x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S4x4096x3.size a
  hwx0_1 : ∀ i : grid0.Coords, EltTy.bits .f32 = 32 ∨ (Rect.block (s := S4x4096x3) S1x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x1.size a ≤ S4x4096x1.size a
  hwx0_2 : ∀ i : grid0.Coords, EltTy.bits .f32 = 32 ∨ (Rect.block (s := S4x4096x1) S1x4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S4x1x4096.size a
  hwx0_3 : ∀ i : grid0.Coords, EltTy.bits .f32 = 32 ∨ (Rect.block (s := S4x1x4096) S1x1x4096.size (cc0_transform_3 i) (hinb0_3 i)).WholeWords (EltTy.packing .f32)

variable [Facts₀]

def dot_S4096x8_S1024x8_S4096x1024_1_1_0_0_n_n : DotDims S4096x8 S1024x8 S4096x1024 where
  lhsContracting := [1]
  rhsContracting := [1]
  lhsNonContracting := [0]
  rhsNonContracting := [0]
  lhsBatch := []
  rhsBatch := []
  wf := dot_S4096x8_S1024x8_S4096x1024_1_1_0_0_n_n_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x4096x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x4096, .f32⟩
  | .hbm, ⟨9, _⟩ => ⟨S4x4096x1, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096, .f32⟩
  | .hbm, ⟨20, _⟩ => ⟨S_, .f32⟩
  | .hbm, ⟨21, _⟩ => ⟨S4x4096, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096x4096_S4x4096_d1 : S4x4096x4096.ReducesTo [1] S4x4096
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.Spec.lean ====
/-
  Chamfer distances of two clouds of 4096 points in space, four batches at a time, over the extended reals.

  For a point p of the first cloud and a point q of the second, the squared distance is taken as
  |p|² + |q|² − 2·(p·q), each norm a sum of three squares begun from the zero word. `dist1` is, for every point of
  the first cloud, the least such value over the second cloud; `dist2` the least over the first cloud for every point
  of the second. Both minima start from the word of +∞.

  The same number can be written as ONE inner product of two rows of eight entries: the first cloud's row carries
  (1·p, |p|², |p|² − |p|², 1, 1, 0) and the second cloud's (−2·q, 1, 1, |q|², |q|² − |q|², 0), so that each squared norm
  meets a one, each vanishing difference meets a one and the coordinates meet their doubled negatives (`kd`).
-/
import Idealize.ShloMosaic.PureOps.Ideal
import Idealize.ShloMosaic.Lib.ValueIdx

noncomputable section

open scoped BigOperators

namespace Cert.Chamfer

open Idealize.ShloMosaic Idealize.ShloMosaic.ValueIdx

/-- Four batches of 4096 points with three coordinates. -/
abbrev Cloud : Shape := ⟨3, ![4, 4096, 3]⟩
/-- One distance per batch and point. -/
abbrev Dists : Shape := ⟨2, ![4, 4096]⟩

/-- The words the two programs spell their constants with, read as extended reals. -/
abbrev topW : EReal := Ideal.ofBits .f32 0x7F800000#32
abbrev zeroW : EReal := Ideal.ofBits .f32 0x00000000#32
abbrev twoW : EReal := Ideal.ofBits .f32 0x40000000#32
abbrev oneW : EReal := Ideal.ofBits .f32 0x3F800000#32
abbrev negTwoW : EReal := Ideal.ofBits .f32 0xC0000000#32
abbrev oneH : EReal := Ideal.ofBits .bf16 0x3F80#16
abbrev zeroH : EReal := Ideal.ofBits .bf16 0x0000#16

/-- The coordinates of point `n` of batch `b`. -/
def pt (x : Cloud.Idx → EReal) (b : Fin 4) (n : Fin 4096) : Fin 3 → EReal := fun k => x (ix3 b n k)

/-- The squared norm, summed from the zero word. -/
def sqn (p : Fin 3 → EReal) : EReal := zeroW + ∑ k : Fin 3, p k * p k
/-- The inner product. -/
def dotp (p q : Fin 3 → EReal) : EReal := ∑ k : Fin 3, p k * q k
/-- The squared distance as |p|² + |q|² − 2·(p·q). -/
def pd (p q : Fin 3 → EReal) : EReal := (sqn p + sqn q) - twoW * dotp p q

/-- For each point of the first cloud, the least squared distance to the second cloud. -/
def dist1 (x y : Cloud.Idx → EReal) : Dists.Idx → EReal := fun i =>
  (Finset.univ : Finset (Fin 4096)).fold min topW (fun m => pd (pt x (i 0) (i 1)) (pt y (i 0) m))
/-- For each point of the second cloud, the least squared distance to the first cloud. -/
def dist2 (x y : Cloud.Idx → EReal) : Dists.Idx → EReal := fun i =>
  (Finset.univ : Finset (Fin 4096)).fold min topW (fun n => pd (pt x (i 0) n) (pt y (i 0) (i 1)))

/-- The sum of the three squares, left to right. -/
def sq3 (p : Fin 3 → EReal) : EReal := p 0 * p 0 + p 1 * p 1 + p 2 * p 2
/-- The first cloud's row of eight. -/
def rowA (p : Fin 3 → EReal) : Fin 8 → EReal :=
  ![oneW * p 0, oneW * p 1, oneW * p 2, sq3 p, sq3 p - sq3 p, oneH, oneH, zeroH]
/-- The second cloud's row of eight. -/
def rowB (q : Fin 3 → EReal) : Fin 8 → EReal :=
  ![negTwoW * q 0, negTwoW * q 1, negTwoW * q 2, oneH, oneH, sq3 q, sq3 q - sq3 q, zeroH]
/-- The squared distance as the inner product of the two rows. -/
def kd (p q : Fin 3 → EReal) : EReal := ∑ k : Fin 8, rowA p k * rowB q k

/-- The two minima over the row form. -/
def dist1K (x y : Cloud.Idx → EReal) : Dists.Idx → EReal := fun i =>
  (Finset.univ : Finset (Fin 4096)).fold min topW (fun m => kd (pt x (i 0) (i 1)) (pt y (i 0) m))
def dist2K (x y : Cloud.Idx → EReal) : Dists.Idx → EReal := fun i =>
  (Finset.univ : Finset (Fin 4096)).fold min topW (fun n => kd (pt x (i 0) n) (pt y (i 0) (i 1)))

end Cert.Chamfer

end
-- ==== Proof.LibReal.lean ====
/-
  Real numbers inside the extended reals: a finite sum of reals is real, the quotient of reals by a non-zero real is
  their real quotient, the square root of a non-negative real is its real square root.
-/
import Idealize.ShloMosaic.PureOps.Ideal
import Idealize.ShloMosaic.PureOps.Ideal.Laws

noncomputable section

open scoped BigOperators

namespace Cert.LibReal

open Idealize.ShloMosaic

/-- A finite sum of real numbers, taken in the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The quotient of two reals, the divisor not zero. -/
theorem div_coe_coe (a b : ℝ) (hb : b ≠ 0) : Ideal.div (a : EReal) (b : EReal) = ((a / b : ℝ) : EReal) := by
  rw [Ideal.div_coe hb, ← EReal.coe_mul]; congr 1; field_simp

/-- The square root of a non-negative real. -/
theorem sqrt_coe_nonneg (a : ℝ) (ha : 0 ≤ a) : Ideal.sqrt (a : EReal) = ((Real.sqrt a : ℝ) : EReal) := by
  rw [Ideal.sqrt_coe, if_neg (not_lt.mpr ha)]

/-- A real minus itself. -/
theorem coe_sub_self (a : ℝ) : (a : EReal) - (a : EReal) = 0 := by
  rw [← EReal.coe_sub, sub_self, EReal.coe_zero]

end Cert.LibReal

end
-- ==== Proof.Algebra.lean ====
/-
  The two spellings of the squared distance agree on real coordinates: the inner product of the two rows of eight
  is |p|² + |q|² − 2·(p·q). Both sides are polynomials in six real numbers; the difference |p|² − |p|² vanishes because
  the norm is finite, and the doubled negative distributes over the three products because every term is finite.
-/
import proofs.«110402_g68685116998012_cont_9to1_m_1223_23_alg».proof.Proof.Spec
import proofs.«110402_g68685116998012_cont_9to1_m_1223_23_alg».proof.Proof.LibReal

noncomputable section

open scoped BigOperators

namespace Cert.Chamfer

open Idealize.ShloMosaic Idealize.ShloMosaic.ValueIdx

/-- The words of the constants, read as real numbers. -/
theorem zeroW_eq : zeroW = ((0 : ℝ) : EReal) := by
  simp [zeroW, Ideal.ofBits, Ideal.ieee]
theorem twoW_eq : twoW = ((2 : ℝ) : EReal) := by
  simp [twoW, Ideal.ofBits, Ideal.ieee, -EReal.coe_mul]; norm_num
theorem oneW_eq : oneW = ((1 : ℝ) : EReal) := by
  simp [oneW, Ideal.ofBits, Ideal.ieee, -EReal.coe_mul]; norm_num
theorem negTwoW_eq : negTwoW = ((-2 : ℝ) : EReal) := by
  simp [negTwoW, Ideal.ofBits, Ideal.ieee, -EReal.coe_mul]; norm_num
theorem oneH_eq : oneH = ((1 : ℝ) : EReal) := by
  simp [oneH, Ideal.ofBits, Ideal.ieee, -EReal.coe_mul]; norm_num
theorem zeroH_eq : zeroH = ((0 : ℝ) : EReal) := by
  simp [zeroH, Ideal.ofBits, Ideal.ieee]

/-- On real coordinates the row form of the squared distance is the norm form. -/
theorem kd_eq_pd (p q : Fin 3 → EReal) (hp : ∀ k, ∃ r : ℝ, p k = (r : EReal)) (hq : ∀ k, ∃ r : ℝ, q k = (r : EReal)) :
    kd p q = pd p q := by
  choose r hr using hp
  choose s hs using hq
  obtain rfl : p = fun k => ((r k : ℝ) : EReal) := funext hr
  obtain rfl : q = fun k => ((s k : ℝ) : EReal) := funext hs
  simp only [kd, pd, rowA, rowB, sq3, sqn, dotp, Fin.sum_univ_eight, Fin.sum_univ_three,
    zeroW_eq, twoW_eq, oneW_eq, negTwoW_eq, oneH_eq, zeroH_eq]
  simp only [Matrix.cons_val]
  simp only [← EReal.coe_mul, ← EReal.coe_add, ← EReal.coe_sub]
  congr 1
  ring

end Cert.Chamfer

end
-- ==== Proof.Finite.lean ====
/-
  From the precondition to real entries: when every entry of both clouds is below +∞ in absolute value, every entry
  is a real number.
-/
import proofs.«110402_g68685116998012_cont_9to1_m_1223_23_alg».proof.Pre_finite_inputs
import proofs.«110402_g68685116998012_cont_9to1_m_1223_23_alg».proof.Proof.Gen.Pre_finite_inputs
import Idealize.ShloMosaic.PureOps.Ideal
import Idealize.ShloMosaic.Lib.ReduceAll
import Idealize.ShloMosaic.Lib.ValueIdx

noncomputable section

open scoped BigOperators

namespace Cert.Chamfer

open Idealize.ShloMosaic Idealize.ShloMosaic.ValueIdx

/-- An extended real whose absolute value compares below the word of +∞ is a real number: at either infinity the
absolute value is +∞ itself. -/
theorem real_of_abs_lt (x : EReal)
    (hx : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at hx
  induction x using EReal.rec with
  | bot => simp [Ideal.cmp] at hx
  | coe r => exact ⟨r, rfl⟩
  | top => simp [Ideal.cmp] at hx

/-- If the finiteness predicate holds of two clouds, each of their entries is a real number. -/
theorem real_of_finite (a b : FVec Ideal Cert.Pre_finite_inputs.S4x4096x3 .f32)
    (h : Cert.Pre_finite_inputs.fn (F := Ideal) a b = fun _ => 1#1) :
    (∀ i, ∃ r : ℝ, a i = (r : EReal)) ∧ (∀ i, ∃ r : ℝ, b i = (r : EReal)) := by
  have h0 := congrFun h ValueIdx.ix0
  dsimp only [Cert.Pre_finite_inputs.fn] at h0
  obtain ⟨ha, hb⟩ := IntOp.andi_eq_one.1 h0
  -- the shape of a scalar has one index
  haveI : Subsingleton Cert.Pre_finite_inputs.S_.Idx := ⟨fun _ _ => funext fun d => d.elim0⟩
  exact ⟨fun i => real_of_abs_lt (a i) (Host.reduce_andi_all _ _ _ _ _ ha i),
    fun i => real_of_abs_lt (b i) (Host.reduce_andi_all _ _ _ _ _ hb i)⟩

end Cert.Chamfer

end
-- ==== Proof.KRows.lean ====
/-
  The two operands of the kernel's matrix products, read at an entry. Each is five pieces set side by side along
  the columns; entry (n, k) is the k-th entry of the row of eight built from point n's three coordinates.
-/
import proofs.«110402_g68685116998012_cont_9to1_m_1223_23_alg».proof.Proof.Gen.KernelIdeal.Skeleton
import proofs.«110402_g68685116998012_cont_9to1_m_1223_23_alg».proof.Proof.Spec
import Idealize.ShloMosaic.Lib.Pipeline.Value

noncomputable section

open scoped BigOperators

namespace Cert.Chamfer

open Idealize.ShloMosaic Idealize.ShloMosaic.ValueIdx

open Cert.KernelIdeal Cert.KernelIdeal.Gen

/-- The block with its leading unit axis dropped: entry (n, c) is the block's (0, n, c). -/
private theorem flat_at (x : Vec Ideal S1x4096x3 .f32) (n : Fin 4096) (c : Fin 3) :
    shapeCast S4096x3 x Facts₀.shapeCasts_S1x4096x3_S4096x3 (ix2 n c) = x (ix3 0 n c) := by
  refine shapeCast_apply x _ (ix2 n c) (ix3 0 n c) ?_
  rw [Shape.rowMajor_val_three, Shape.rowMajor_val_two]
  show ((0 : Nat) * 4096 + n.val) * 3 + c.val = n.val * 3 + c.val
  omega

/-- Column c of a [4096,3] value, cut out as a [4096,1] slice, at row n. -/
private theorem col_at (y : FVec Ideal S4096x3 .f32) (c : Fin 3) (h : S4096x3.Slices ![0, c.val] S4096x1) (n : Fin 4096) :
    extractStridedSlice S4096x1 ![0, c.val] y h (ix2 n 0) = y (ix2 n c) := by
  refine extractStridedSlice_apply _ y h (ix2 n 0) (ix2 n c) ?_
  intro a
  match a with
  | ⟨0, _⟩ => show n.val = 0 + n.val; omega
  | ⟨1, _⟩ => show c.val = c.val + 0; omega

/-- Column c of the flattened block, at row n, is coordinate c of point n. -/
private theorem coord_at (x : Vec Ideal S1x4096x3 .f32) (c : Fin 3) (h : S4096x3.Slices ![0, c.val] S4096x1) (n : Fin 4096) :
    extractStridedSlice S4096x1 ![0, c.val] (shapeCast S4096x3 x Facts₀.shapeCasts_S1x4096x3_S4096x3) h (ix2 n 0)
      = x (ix3 0 n c) :=
  (col_at _ c h n).trans (flat_at x n c)

/-- Three columns squared and summed left to right, at an index where they read the coordinates of p. -/
private theorem sqsum_at (p : Fin 3 → EReal) (c0 c1 c2 : FVec Ideal S4096x1 .f32) (i : S4096x1.Idx)
    (h0 : c0 i = p 0) (h1 : c1 i = p 1) (h2 : c2 i = p 2) :
    addf (addf (mulf c0 c0) (mulf c1 c1)) (mulf c2 c2) i = sq3 p := by
  show c0 i * c0 i + c1 i * c1 i + c2 i * c2 i = sq3 p
  rw [h0, h1, h2]
  rfl

/-- Five pieces of widths 3, 1, 1, 2, 1 set side by side along the columns, read at (n, k): the column's piece at its own column. -/
private theorem cat31121_at {α : Type} (a : S4096x3.Idx → α) (b : S4096x1.Idx → α) (c : S4096x1.Idx → α) (d : S4096x2.Idx → α) (e : S4096x1.Idx → α)
    (h : Shape.Concatenates [S4096x3, S4096x1, S4096x1, S4096x2, S4096x1] S4096x8 1) (n : Fin 4096) (k : Fin 8) :
    concatenate S4096x8 1 [⟨S4096x3, a⟩, ⟨S4096x1, b⟩, ⟨S4096x1, c⟩, ⟨S4096x2, d⟩, ⟨S4096x1, e⟩] h (ix2 n k)
      = ![a (ix2 n 0), a (ix2 n 1), a (ix2 n 2), b (ix2 n 0), c (ix2 n 0), d (ix2 n 0), d (ix2 n 1), e (ix2 n 0)] k := by
  have side : ∀ {w : Nat} (i : (⟨2, ![4096, w]⟩ : Shape).Idx) (j : S4096x8.Idx), (i 0).val = (j 0).val →
      ∀ r : Fin 2, r.cast rfl ≠ (1 : Fin 2) → (i r).val = (j (r.cast rfl)).val := by
    intro w i j h0 r hr
    match r with
    | ⟨0, _⟩ => exact h0
    | ⟨1, _⟩ => exact absurd rfl hr
  match k with
  | ⟨0, _⟩ =>
    exact (concatenate_apply_piece (t := S4096x8) (1 : Fin 2) [⟨S4096x3, a⟩, ⟨S4096x1, b⟩, ⟨S4096x1, c⟩, ⟨S4096x2, d⟩, ⟨S4096x1, e⟩] h (ix2 n ⟨0, _⟩) 0
      (by show (0 : Nat) < 5; omega) S4096x3 a rfl rfl 0 rfl (ix2 n 0) (side _ _ rfl) rfl).trans rfl
  | ⟨1, _⟩ =>
    exact (concatenate_apply_piece (t := S4096x8) (1 : Fin 2) [⟨S4096x3, a⟩, ⟨S4096x1, b⟩, ⟨S4096x1, c⟩, ⟨S4096x2, d⟩, ⟨S4096x1, e⟩] h (ix2 n ⟨1, _⟩) 0
      (by show (0 : Nat) < 5; omega) S4096x3 a rfl rfl 0 rfl (ix2 n 1) (side _ _ rfl) rfl).trans rfl
  | ⟨2, _⟩ =>
    exact (concatenate_apply_piece (t := S4096x8) (1 : Fin 2) [⟨S4096x3, a⟩, ⟨S4096x1, b⟩, ⟨S4096x1, c⟩, ⟨S4096x2, d⟩, ⟨S4096x1, e⟩] h (ix2 n ⟨2, _⟩) 0
      (by show (0 : Nat) < 5; omega) S4096x3 a rfl rfl 0 rfl (ix2 n 2) (side _ _ rfl) rfl).trans rfl
  | ⟨3, _⟩ =>
    exact (concatenate_apply_piece (t := S4096x8) (1 : Fin 2) [⟨S4096x3, a⟩, ⟨S4096x1, b⟩, ⟨S4096x1, c⟩, ⟨S4096x2, d⟩, ⟨S4096x1, e⟩] h (ix2 n ⟨3, _⟩) 1
      (by show (1 : Nat) < 5; omega) S4096x1 b rfl rfl 3 rfl (ix2 n 0) (side _ _ rfl) rfl).trans rfl
  | ⟨4, _⟩ =>
    exact (concatenate_apply_piece (t := S4096x8) (1 : Fin 2) [⟨S4096x3, a⟩, ⟨S4096x1, b⟩, ⟨S4096x1, c⟩, ⟨S4096x2, d⟩, ⟨S4096x1, e⟩] h (ix2 n ⟨4, _⟩) 2
      (by show (2 : Nat) < 5; omega) S4096x1 c rfl rfl 4 rfl (ix2 n 0) (side _ _ rfl) rfl).trans rfl
  | ⟨5, _⟩ =>
    exact (concatenate_apply_piece (t := S4096x8) (1 : Fin 2) [⟨S4096x3, a⟩, ⟨S4096x1, b⟩, ⟨S4096x1, c⟩, ⟨S4096x2, d⟩, ⟨S4096x1, e⟩] h (ix2 n ⟨5, _⟩) 3
      (by show (3 : Nat) < 5; omega) S4096x2 d rfl rfl 5 rfl (ix2 n 0) (side _ _ rfl) rfl).trans rfl
  | ⟨6, _⟩ =>
    exact (concatenate_apply_piece (t := S4096x8) (1 : Fin 2) [⟨S4096x3, a⟩, ⟨S4096x1, b⟩, ⟨S4096x1, c⟩, ⟨S4096x2, d⟩, ⟨S4096x1, e⟩] h (ix2 n ⟨6, _⟩) 3
      (by show (3 : Nat) < 5; omega) S4096x2 d rfl rfl 5 rfl (ix2 n 1) (side _ _ rfl) rfl).trans rfl
  | ⟨7, _⟩ =>
    exact (concatenate_apply_piece (t := S4096x8) (1 : Fin 2) [⟨S4096x3, a⟩, ⟨S4096x1, b⟩, ⟨S4096x1, c⟩, ⟨S4096x2, d⟩, ⟨S4096x1, e⟩] h (ix2 n ⟨7, _⟩) 4
      (by show (4 : Nat) < 5; omega) S4096x1 e rfl rfl 7 rfl (ix2 n 0) (side _ _ rfl) rfl).trans rfl

/-- Five pieces of widths 3, 2, 1, 1, 1 set side by side along the columns, read at (n, k): the column's piece at its own column. -/
private theorem cat32111_at {α : Type} (a : S4096x3.Idx → α) (b : S4096x2.Idx → α) (c : S4096x1.Idx → α) (d : S4096x1.Idx → α) (e : S4096x1.Idx → α)
    (h : Shape.Concatenates [S4096x3, S4096x2, S4096x1, S4096x1, S4096x1] S4096x8 1) (n : Fin 4096) (k : Fin 8) :
    concatenate S4096x8 1 [⟨S4096x3, a⟩, ⟨S4096x2, b⟩, ⟨S4096x1, c⟩, ⟨S4096x1, d⟩, ⟨S4096x1, e⟩] h (ix2 n k)
      = ![a (ix2 n 0), a (ix2 n 1), a (ix2 n 2), b (ix2 n 0), b (ix2 n 1), c (ix2 n 0), d (ix2 n 0), e (ix2 n 0)] k := by
  have side : ∀ {w : Nat} (i : (⟨2, ![4096, w]⟩ : Shape).Idx) (j : S4096x8.Idx), (i 0).val = (j 0).val →
      ∀ r : Fin 2, r.cast rfl ≠ (1 : Fin 2) → (i r).val = (j (r.cast rfl)).val := by
    intro w i j h0 r hr
    match r with
    | ⟨0, _⟩ => exact h0
    | ⟨1, _⟩ => exact absurd rfl hr
  match k with
  | ⟨0, _⟩ =>
    exact (concatenate_apply_piece (t := S4096x8) (1 : Fin 2) [⟨S4096x3, a⟩, ⟨S4096x2, b⟩, ⟨S4096x1, c⟩, ⟨S4096x1, d⟩, ⟨S4096x1, e⟩] h (ix2 n ⟨0, _⟩) 0
      (by show (0 : Nat) < 5; omega) S4096x3 a rfl rfl 0 rfl (ix2 n 0) (side _ _ rfl) rfl).trans rfl
  | ⟨1, _⟩ =>
    exact (concatenate_apply_piece (t := S4096x8) (1 : Fin 2) [⟨S4096x3, a⟩, ⟨S4096x2, b⟩, ⟨S4096x1, c⟩, ⟨S4096x1, d⟩, ⟨S4096x1, e⟩] h (ix2 n ⟨1, _⟩) 0
      (by show (0 : Nat) < 5; omega) S4096x3 a rfl rfl 0 rfl (ix2 n 1) (side _ _ rfl) rfl).trans rfl
  | ⟨2, _⟩ =>
    exact (concatenate_apply_piece (t := S4096x8) (1 : Fin 2) [⟨S4096x3, a⟩, ⟨S4096x2, b⟩, ⟨S4096x1, c⟩, ⟨S4096x1, d⟩, ⟨S4096x1, e⟩] h (ix2 n ⟨2, _⟩) 0
      (by show (0 : Nat) < 5; omega) S4096x3 a rfl rfl 0 rfl (ix2 n 2) (side _ _ rfl) rfl).trans rfl
  | ⟨3, _⟩ =>
    exact (concatenate_apply_piece (t := S4096x8) (1 : Fin 2) [⟨S4096x3, a⟩, ⟨S4096x2, b⟩, ⟨S4096x1, c⟩, ⟨S4096x1, d⟩, ⟨S4096x1, e⟩] h (ix2 n ⟨3, _⟩) 1
      (by show (1 : Nat) < 5; omega) S4096x2 b rfl rfl 3 rfl (ix2 n 0) (side _ _ rfl) rfl).trans rfl
  | ⟨4, _⟩ =>
    exact (concatenate_apply_piece (t := S4096x8) (1 : Fin 2) [⟨S4096x3, a⟩, ⟨S4096x2, b⟩, ⟨S4096x1, c⟩, ⟨S4096x1, d⟩, ⟨S4096x1, e⟩] h (ix2 n ⟨4, _⟩) 1
      (by show (1 : Nat) < 5; omega) S4096x2 b rfl rfl 3 rfl (ix2 n 1) (side _ _ rfl) rfl).trans rfl
  | ⟨5, _⟩ =>
    exact (concatenate_apply_piece (t := S4096x8) (1 : Fin 2) [⟨S4096x3, a⟩, ⟨S4096x2, b⟩, ⟨S4096x1, c⟩, ⟨S4096x1, d⟩, ⟨S4096x1, e⟩] h (ix2 n ⟨5, _⟩) 2
      (by show (2 : Nat) < 5; omega) S4096x1 c rfl rfl 5 rfl (ix2 n 0) (side _ _ rfl) rfl).trans rfl
  | ⟨6, _⟩ =>
    exact (concatenate_apply_piece (t := S4096x8) (1 : Fin 2) [⟨S4096x3, a⟩, ⟨S4096x2, b⟩, ⟨S4096x1, c⟩, ⟨S4096x1, d⟩, ⟨S4096x1, e⟩] h (ix2 n ⟨6, _⟩) 3
      (by show (3 : Nat) < 5; omega) S4096x1 d rfl rfl 6 rfl (ix2 n 0) (side _ _ rfl) rfl).trans rfl
  | ⟨7, _⟩ =>
    exact (concatenate_apply_piece (t := S4096x8) (1 : Fin 2) [⟨S4096x3, a⟩, ⟨S4096x2, b⟩, ⟨S4096x1, c⟩, ⟨S4096x1, d⟩, ⟨S4096x1, e⟩] h (ix2 n ⟨7, _⟩) 4
      (by show (4 : Nat) < 5; omega) S4096x1 e rfl rfl 7 rfl (ix2 n 0) (side _ _ rfl) rfl).trans rfl

/-- The left operand at (n, k): the first cloud's row of point n. -/
theorem rowA_at (x0 : Vec Ideal S1x4096x3 .f32) (n : Fin 4096) (k : Fin 8) :
    k0_pay6 (F := Ideal) x0 (ix2 n k) = rowA (fun c => x0 (ix3 0 n c)) k := by
  unfold k0_pay6
  refine (cat31121_at _ _ _ _ _ _ n k).trans ?_
  have sq := sqsum_at (fun c => x0 (ix3 0 n c)) _ _ _ (ix2 n 0)
    (coord_at x0 0 Facts₀.slices_S4096x3_o0_0_S4096x1 n) (coord_at x0 1 Facts₀.slices_S4096x3_o0_1_S4096x1 n)
    (coord_at x0 2 Facts₀.slices_S4096x3_o0_2_S4096x1 n)
  match k with
  | ⟨0, _⟩ => exact congrArg (oneW * ·) (flat_at x0 n 0)
  | ⟨1, _⟩ => exact congrArg (oneW * ·) (flat_at x0 n 1)
  | ⟨2, _⟩ => exact congrArg (oneW * ·) (flat_at x0 n 2)
  | ⟨3, _⟩ => exact sq
  | ⟨4, _⟩ => exact congrArg₂ (· - ·) sq sq
  | ⟨5, _⟩ => exact (rfl : oneH = oneH)
  | ⟨6, _⟩ => exact (rfl : oneH = oneH)
  | ⟨7, _⟩ => exact (rfl : zeroH = zeroH)

/-- The right operand at (m, k): the second cloud's row of point m. -/
theorem rowB_at (x1 : Vec Ideal S1x4096x3 .f32) (m : Fin 4096) (k : Fin 8) :
    k0_pay7 (F := Ideal) x1 (ix2 m k) = rowB (fun c => x1 (ix3 0 m c)) k := by
  unfold k0_pay7
  refine (cat32111_at _ _ _ _ _ _ m k).trans ?_
  have sq := sqsum_at (fun c => x1 (ix3 0 m c)) _ _ _ (ix2 m 0)
    (coord_at x1 0 Facts₀.slices_S4096x3_o0_0_S4096x1 m) (coord_at x1 1 Facts₀.slices_S4096x3_o0_1_S4096x1 m)
    (coord_at x1 2 Facts₀.slices_S4096x3_o0_2_S4096x1 m)
  match k with
  | ⟨0, _⟩ => exact congrArg (negTwoW * ·) (flat_at x1 m 0)
  | ⟨1, _⟩ => exact congrArg (negTwoW * ·) (flat_at x1 m 1)
  | ⟨2, _⟩ => exact congrArg (negTwoW * ·) (flat_at x1 m 2)
  | ⟨3, _⟩ => exact (rfl : oneH = oneH)
  | ⟨4, _⟩ => exact (rfl : oneH = oneH)
  | ⟨5, _⟩ => exact sq
  | ⟨6, _⟩ => exact congrArg₂ (· - ·) sq sq
  | ⟨7, _⟩ => exact (rfl : zeroH = zeroH)

end Cert.Chamfer

end
-- ==== Proof.LibDotT.lean ====
/-
  A matrix product against a transposed right operand, read at an entry. For the dimension numbers "contract the left
  operand's columns with the right operand's columns, no batch axis", the vector unit's product into a zero
  accumulator is, at entry (r, c) and over the extended reals, the sum over k of x(r, k) · w(c, k).
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-! ## The four coordinates of the operand indices

  With the left operand's rows the only free left axis, the right operand's rows the only free right axis and one
  shared axis (each operand's columns), the left operand is read at (row of the entry, shared coordinate) and the
  right operand at (column of the entry, shared coordinate). Each of the four coordinates is its own statement, at
  the literal axis. -/

section Axes

variable {R K C : Nat} (d : DotDims ⟨2, ![R, K]⟩ ⟨2, ![C, K]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the entry's column. -/
theorem rhs_axis0 (hln : d.lhsNonContracting = [0]) (hrn : d.rhsNonContracting = [0]) (hlb : d.lhsBatch = [])
    (hrb : d.rhsBatch = []) (j : (⟨2, ![R, C]⟩ : Shape).Idx) (k : d.contr.Idx) : (d.rhsIdx j k 0 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The right operand's column coordinate is the shared coordinate. -/
theorem rhs_axis1 (hl : d.lhsContracting = [1]) (hr : d.rhsContracting = [1]) (j : (⟨2, ![R, C]⟩ : Shape).Idx)
    (k : d.contr.Idx) : (d.rhsIdx j k 1 : ℕ) = (k ⟨0, by rw [rank_contr_one d hl]; exact Nat.one_pos⟩ : ℕ) :=
  d.rhsIdx_val_of_single hr j k

end Axes

/-- The contraction sum of a product against a transposed right operand, re-indexed by the shared axis's
    coordinate: the left operand is read at (r, k), the right one at (c, k). -/
theorem contr_sum_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (x : FVec Ideal ⟨2, ![R, K]⟩ φ₁) (w : FVec Ideal ⟨2, ![C, K]⟩ φ₂) (r : Fin R) (c : Fin C) :
    (∑ k : d.contr.Idx, x (d.lhsIdx (ix2 r c) k) * w (d.rhsIdx (ix2 r c) k)) = ∑ k : Fin K, x (ix2 r k) * w (ix2 c k) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 c k := by
    funext a
    match a with
    | ⟨0, _⟩ => exact Fin.ext (rhs_axis0 d hln hrn hlb hrb _ _)
    | ⟨1, _⟩ => exact Fin.ext ((rhs_axis1 d hl hr _ _).trans hk)
  rw [hx, hw]

/-- The vector unit's product against a transposed right operand into the zero accumulator, at entry (r, c). -/
theorem matmul_zero_at_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (prec : Option ContractPrecision) (x : FVec Ideal ⟨2, ![R, K]⟩ φ₁) (w : FVec Ideal ⟨2, ![C, K]⟩ φ₂) (r : Fin R) (c : Fin C) :
    FloatOps.matmul d prec x w (constant ⟨2, ![R, C]⟩ .f32 0x00000000#32) (ix2 r c) = ∑ k : Fin K, x (ix2 r k) * w (ix2 c k) := by
  rw [Ideal.matmul_constant_zero_apply]
  exact contr_sum_T d hl hr hln hrn hlb hrb x w r c

end Cert.LibDotT

end
-- ==== Proof.KChunk.lean ====
/-
  The four matrix products of the kernel, read at an entry. The second cloud is cut into four runs of 1024 points;
  product c at (n, j) is the row form of the squared distance between point n of the first cloud and point
  1024·c + j of the second.
-/
import proofs.«110402_g68685116998012_cont_9to1_m_1223_23_alg».proof.Proof.KRows
import proofs.«110402_g68685116998012_cont_9to1_m_1223_23_alg».proof.Proof.LibDotT

noncomputable section

open scoped BigOperators

namespace Cert.Chamfer

open Idealize.ShloMosaic Idealize.ShloMosaic.ValueIdx

open Cert.KernelIdeal Cert.KernelIdeal.Gen

/-- Point j of run c of the second cloud. -/
def runPt (c : Fin 4) (j : Fin 1024) : Fin 4096 := ⟨1024 * c.val + j.val, by have := c.isLt; have := j.isLt; omega⟩

/-- The product of the first cloud's rows with the 1024 rows of the second cloud that begin at row `off`, into the
    zero accumulator, at entry (n, j): when `off` is where run c begins, the sum over the eight columns is the inner
    product of the row of point n and the row of point 1024·c + j. -/
theorem chunk_at (x0 x1 : Vec Ideal S1x4096x3 .f32) (off : Nat) (hs : S4096x8.Slices ![off, 0] S1024x8)
    (c : Fin 4) (hoff : off = 1024 * c.val) (n : Fin 4096) (j : Fin 1024) :
    FloatOps.matmul dot_S4096x8_S1024x8_S4096x1024_1_1_0_0_n_n none (k0_pay6 (F := Ideal) x0)
        (extractStridedSlice S1024x8 ![off, 0] (k0_pay7 (F := Ideal) x1) hs)
        (constant S4096x1024 .f32 0x00000000#32) (ix2 n j)
      = kd (fun a => x0 (ix3 0 n a)) (fun a => x1 (ix3 0 (runPt c j) a)) := by
  rw [Cert.LibDotT.matmul_zero_at_T _ rfl rfl rfl rfl rfl rfl]
  unfold kd
  refine Finset.sum_congr rfl fun k _ => ?_
  have hB : extractStridedSlice S1024x8 ![off, 0] (k0_pay7 (F := Ideal) x1) hs (ix2 j k)
      = k0_pay7 (F := Ideal) x1 (ix2 (runPt c j) k) :=
    extractStridedSlice_apply _ _ _ _ _ (fun ax => by
      match ax with
      | ⟨0, _⟩ => show 1024 * c.val + j.val = off + j.val; omega
      | ⟨1, _⟩ => exact (Nat.zero_add _).symm)
  rw [hB, rowA_at, rowB_at]

theorem chunk0_at (x0 x1 : Vec Ideal S1x4096x3 .f32) (n : Fin 4096) (j : Fin 1024) :
    k0_pay8 (F := Ideal) x0 x1 (ix2 n j)
      = kd (fun c => x0 (ix3 0 n c)) (fun c => x1 (ix3 0 (runPt 0 j) c)) :=
  chunk_at x0 x1 0 Facts₀.slices_S4096x8_o0_0_S1024x8 0 rfl n j

theorem chunk1_at (x0 x1 : Vec Ideal S1x4096x3 .f32) (n : Fin 4096) (j : Fin 1024) :
    k0_pay1 (F := Ideal) (k0_pay6 x0) (k0_pay10 x1) (constant S4096x1024 .f32 0x00000000#32) (ix2 n j)
      = kd (fun c => x0 (ix3 0 n c)) (fun c => x1 (ix3 0 (runPt 1 j) c)) :=
  chunk_at x0 x1 1024 Facts₀.slices_S4096x8_o1024_0_S1024x8 1 rfl n j

theorem chunk2_at (x0 x1 : Vec Ideal S1x4096x3 .f32) (n : Fin 4096) (j : Fin 1024) :
    k0_pay2 (F := Ideal) (k0_pay6 x0) (k0_pay7 x1) (ix2 n j)
      = kd (fun c => x0 (ix3 0 n c)) (fun c => x1 (ix3 0 (runPt 2 j) c)) :=
  chunk_at x0 x1 2048 Facts₀.slices_S4096x8_o2048_0_S1024x8 2 rfl n j

theorem chunk3_at (x0 x1 : Vec Ideal S1x4096x3 .f32) (n : Fin 4096) (j : Fin 1024) :
    k0_pay3 (F := Ideal) (k0_pay6 x0) (k0_pay7 x1) (ix2 n j)
      = kd (fun c => x0 (ix3 0 n c)) (fun c => x1 (ix3 0 (runPt 3 j) c)) :=
  chunk_at x0 x1 3072 Facts₀.slices_S4096x8_o3072_0_S1024x8 3 rfl n j

end Cert.Chamfer

end
-- ==== Proof.LibConcatFour.lean ====
/-
  A concatenation of FOUR pieces of one shape along an axis, read at an index.

  The four pieces have extent `K` along the joined axis, so the result's coordinate `c` on that axis falls in piece
  `c / K` at coordinate `c % K`, every other coordinate unchanged. The literal four-element list is the list of the
  family `![x0, x1, x2, x3]`, which is how the library states a concatenation of pieces of one shape.
-/
import Idealize.ShloMosaic.Lib.Pipeline.Value

noncomputable section

namespace Idealize.ShloMosaic.ConcatFour

open Idealize.ShloMosaic

/-- Four pieces of one shape `s₁` joined along axis `a`, read at `j`: piece `n = (j a) / K` at the index `i` that has
    `(j a) % K` on the joined axis and `j`'s coordinates elsewhere. -/
theorem concatenate_four_apply {α : Type} {t s₁ : Shape} (a : Fin t.rank) (x0 x1 x2 x3 : s₁.Idx → α)
    (h : Shape.Concatenates [s₁, s₁, s₁, s₁] t a) (hr : s₁.rank = t.rank) (K : Nat) (hK : s₁.size (a.cast hr.symm) = K)
    (j : t.Idx) (n : Fin 4) (hn : (j a).val / K = n.val) (i : s₁.Idx)
    (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩, ⟨s₁, x3⟩] h j = (![x0, x1, x2, x3] n) i :=
  concatenate_ofFn_apply a (fun n : Fin 4 => ![x0, x1, x2, x3] n) h hr K hK j n hn i hia hi

end Idealize.ShloMosaic.ConcatFour

end
-- ==== Proof.KMin.lean ====
/-
  What the kernel stores for one batch, read at an entry. The first result takes, at every entry of the four products,
  the least of the four and then the least along each row: the least over all 4096 points of the second cloud. The second
  result takes the least down each column of each product and sets the four runs end to end: for point m, the least
  over all 4096 points of the first cloud.
-/
import proofs.«110402_g68685116998012_cont_9to1_m_1223_23_alg».proof.Proof.KChunk
import proofs.«110402_g68685116998012_cont_9to1_m_1223_23_alg».proof.Proof.LibConcatFour
import Idealize.ShloMosaic.PureOps.Ideal.Laws

noncomputable section

open scoped BigOperators

namespace Cert.Chamfer

open Idealize.ShloMosaic Idealize.ShloMosaic.ValueIdx

open Cert.KernelIdeal Cert.KernelIdeal.Gen

/-! ## Least values over one axis -/

/-- Over the extended reals a least-value reduction over one axis is, at each kept index, the fold of `min` from the
    starting word's value over that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The least value along row n of a 4096 × 1024 block. -/
theorem rowMin_at (src : FVec Ideal S4096x1024 .f32) (n : Fin 4096) :
    multiReduction .minimumf [1] S4096 src 0x7F800000#32 reduces_S4096x1024_S4096 (.inl rfl) rfl (ix1 n)
      = (Finset.univ : Finset (Fin 1024)).fold min topW (fun j => src (ix2 n j)) := by
  refine (multiReduction_minimumf_single src _ reduces_S4096x1024_S4096 _ _ (ix1 n)).trans ?_
  have hl : ∀ j : Fin 1024, reduces_S4096x1024_S4096.lift (ix1 n) j = ix2 n j := fun j => by
    funext a; match a with | ⟨0, _⟩ => rfl | ⟨1, _⟩ => rfl
  exact congrArg (Finset.fold min topW · Finset.univ) (funext fun j => congrArg src (hl j))

/-- The least value down column j of a 4096 × 1024 block. -/
theorem colMin_at (src : FVec Ideal S4096x1024 .f32) (j : Fin 1024) :
    multiReduction .minimumf [0] S1024 src 0x7F800000#32 reduces_S4096x1024_S1024 (.inl rfl) rfl (ix1 j)
      = (Finset.univ : Finset (Fin 4096)).fold min topW (fun n => src (ix2 n j)) := by
  refine (multiReduction_minimumf_single src _ reduces_S4096x1024_S1024 _ _ (ix1 j)).trans ?_
  have hl : ∀ n : Fin 4096, reduces_S4096x1024_S1024.lift (ix1 j) n = ix2 n j := fun n => by
    funext a; match a with | ⟨0, _⟩ => rfl | ⟨1, _⟩ => rfl
  exact congrArg (Finset.fold min topW · Finset.univ) (funext fun n => congrArg src (hl n))

/-! ## Four runs of 1024 make 4096 -/

/-- Every point of the second cloud lies in one run. -/
theorem exists_runPt (m : Fin 4096) : ∃ (c : Fin 4) (j : Fin 1024), m = runPt c j := by
  have hm := m.isLt
  exact ⟨⟨m.val / 1024, by omega⟩, ⟨m.val % 1024, Nat.mod_lt _ (by norm_num)⟩,
    Fin.ext (by show m.val = 1024 * (m.val / 1024) + m.val % 1024; omega)⟩

/-- The least over 1024 places of the least of four runs' values is the least over all 4096 points: a bound is below
    one side exactly when it is below every value, which is when it is below the other. -/
theorem fold_min_regroup (f : Fin 4096 → EReal) (init : EReal) :
    (Finset.univ : Finset (Fin 1024)).fold min init
        (fun j => min (min (min (f (runPt 0 j)) (f (runPt 1 j))) (f (runPt 2 j))) (f (runPt 3 j)))
      = (Finset.univ : Finset (Fin 4096)).fold min init f := by
  refine eq_of_forall_le_iff fun b => ?_
  rw [Finset.le_fold_min, Finset.le_fold_min]
  refine and_congr_right fun _ => ⟨fun h m _ => ?_, fun h j _ => ?_⟩
  · obtain ⟨c, j, rfl⟩ := exists_runPt m
    have hj := h j (Finset.mem_univ _)
    simp only [le_min_iff] at hj
    obtain ⟨⟨⟨h0, h1⟩, h2⟩, h3⟩ := hj
    match c with
    | ⟨0, _⟩ => exact h0
    | ⟨1, _⟩ => exact h1
    | ⟨2, _⟩ => exact h2
    | ⟨3, _⟩ => exact h3
  · simp only [le_min_iff]
    exact ⟨⟨⟨h _ (Finset.mem_univ _), h _ (Finset.mem_univ _)⟩, h _ (Finset.mem_univ _)⟩, h _ (Finset.mem_univ _)⟩

/-- Four runs of 1024 set end to end, read at place j of run c: that run at j. -/
theorem concat_runs_at (a0 a1 a2 a3 : S1024.Idx → EReal) (c : Fin 4) (j : Fin 1024) (r : EReal)
    (h0 : c = 0 → a0 (ix1 j) = r) (h1 : c = 1 → a1 (ix1 j) = r) (h2 : c = 2 → a2 (ix1 j) = r)
    (h3 : c = 3 → a3 (ix1 j) = r) :
    concatenate S4096 0 [⟨S1024, a0⟩, ⟨S1024, a1⟩, ⟨S1024, a2⟩, ⟨S1024, a3⟩]
        concatenates_S1024_S1024_S1024_S1024_S4096_d0 (ix1 (runPt c j)) = r := by
  refine (ConcatFour.concatenate_four_apply (t := S4096) (s₁ := S1024) 0 a0 a1 a2 a3
    concatenates_S1024_S1024_S1024_S1024_S4096_d0 rfl 1024 rfl (ix1 (runPt c j)) c ?_ (ix1 j) ?_ ?_).trans ?_
  · show (1024 * c.val + j.val) / 1024 = c.val
    have := j.isLt; omega
  · show j.val = (1024 * c.val + j.val) % 1024
    have := j.isLt; omega
  · intro b hb
    exact absurd (Subsingleton.elim _ _) hb
  · match c with
    | ⟨0, _⟩ => exact h0 rfl
    | ⟨1, _⟩ => exact h1 rfl
    | ⟨2, _⟩ => exact h2 rfl
    | ⟨3, _⟩ => exact h3 rfl

/-! ## The two stored blocks -/

/-- The first stored block at (0, n, 0). -/
theorem pay_dist1 (x0 x1 : Vec Ideal S1x4096x3 .f32) (n : Fin 4096) :
    k0_pay4 (F := Ideal) (k0_pay6 x0) (k0_pay7 x1) (k0_pay8 x0 x1) (k0_pay10 x1) (constant S4096x1024 .f32 0x00000000#32) (ix3 0 n 0)
      = (Finset.univ : Finset (Fin 4096)).fold min topW (fun m => kd (fun c => x0 (ix3 0 n c)) (fun c => x1 (ix3 0 m c))) := by
  unfold k0_pay4
  refine (shapeCast_apply _ shapeCasts_S4096_S1x4096x1 (ix3 0 n 0) (ix1 n) ?_).trans ?_
  · rw [Shape.rowMajor_val_one, Shape.rowMajor_val_three]
    show n.val = (0 * 4096 + n.val) * 1 + 0
    omega
  rw [rowMin_at]
  simp only [minimumf_apply, chunk0_at, chunk1_at, chunk2_at, chunk3_at]
  exact fold_min_regroup (fun m => kd (fun c => x0 (ix3 0 n c)) (fun c => x1 (ix3 0 m c))) topW

/-- The second stored block at (0, 0, m). -/
theorem pay_dist2 (x0 x1 : Vec Ideal S1x4096x3 .f32) (m : Fin 4096) :
    k0_pay5 (F := Ideal) (k0_pay6 x0) (k0_pay7 x1) (k0_pay9 x0 x1) (k0_pay10 x1) (constant S4096x1024 .f32 0x00000000#32) (ix3 0 0 m)
      = (Finset.univ : Finset (Fin 4096)).fold min topW (fun n => kd (fun c => x0 (ix3 0 n c)) (fun c => x1 (ix3 0 m c))) := by
  obtain ⟨c, j, rfl⟩ := exists_runPt m
  unfold k0_pay5 k0_pay9
  refine (shapeCast_apply _ shapeCasts_S4096_S1x1x4096 (ix3 0 0 (runPt c j)) (ix1 (runPt c j)) ?_).trans ?_
  · rw [Shape.rowMajor_val_one, Shape.rowMajor_val_three]
    show (runPt c j).val = (0 * 1 + 0) * 4096 + (runPt c j).val
    omega
  refine concat_runs_at _ _ _ _ c j _ ?_ ?_ ?_ ?_
  · rintro rfl
    refine (colMin_at (k0_pay8 x0 x1) j).trans ?_
    simp only [chunk0_at]
  · rintro rfl
    refine (colMin_at _ j).trans ?_
    simp only [chunk1_at]
  · rintro rfl
    refine (colMin_at _ j).trans ?_
    simp only [chunk2_at]
  · rintro rfl
    refine (colMin_at _ j).trans ?_
    simp only [chunk3_at]

end Cert.Chamfer

end
-- ==== Proof.KValue.lean ====
/-
  What the kernel leaves in memory, as functions of the two clouds.

  The grid has one point per batch: at point t every window's block is batch t's slab of its array. What the body
  stores for that batch is batch t's row of `dist1K`, as a column of shape [1, 4096, 1], and batch t's row of
  `dist2K`, as a row of shape [1, 1, 4096]. The four blocks of each output tile its array, so after the last point
  the two arrays hold `G2` and `G3` of the clouds; the two reshapes that follow drop the unit axes and leave
  `dist1K` and `dist2K`.
-/
import proofs.«110402_g68685116998012_cont_9to1_m_1223_23_alg».proof.Proof.Gen.KernelIdeal.Frame
import proofs.«110402_g68685116998012_cont_9to1_m_1223_23_alg».proof.Proof.KMin
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Chamfer.Kernel

open Cert.KernelIdeal Cert.KernelIdeal.Gen Cert.Chamfer

variable (m : (ℓ : Loc nD τ sig) → Buf (Elt Ideal) ℓ) (ρ : Dev nD → PrngReg)

/-- The zero offset on three axes. -/
theorem hz : (![0, 0, 0] : Fin 3 → Nat) = fun _ => 0 := funext fun a => by fin_cases a <;> rfl

/-- Every window's block index at grid point t is (t, 0, 0): one batch per point. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The batch of a grid point. -/
def batch (t : Fin cfg0.N) : Fin 4 := ⟨t.val, lt_of_lt_of_eq t.isLt N_0⟩

/-- The first cloud's block at point t holds batch t's points. -/
theorem iblk0_apply (c : Dev nD) (t : Fin cfg0.N) (n : Fin 4096) (k : Fin 3) :
    (iblk m c 0 t : Vec Ideal S1x4096x3 .f32) (ix3 0 n k) = (V m c main_arg0 : S4x4096x3.Idx → EReal) (ix3 (batch t) n k) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = t.val; omega
  | ⟨1, _⟩ => show win0_0.index t (1 : Fin 3) * 4096 + 1 * n.val = n.val; omega
  | ⟨2, _⟩ => show win0_0.index t (2 : Fin 3) * 3 + 1 * k.val = k.val; omega

/-- The second cloud's block at point t holds batch t's points. -/
theorem iblk1_apply (c : Dev nD) (t : Fin cfg0.N) (n : Fin 4096) (k : Fin 3) :
    (iblk m c 1 t : Vec Ideal S1x4096x3 .f32) (ix3 0 n k) = (V m c main_arg1 : S4x4096x3.Idx → EReal) (ix3 (batch t) n k) := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * 0 = t.val; omega
  | ⟨1, _⟩ => show win0_1.index t (1 : Fin 3) * 4096 + 1 * n.val = n.val; omega
  | ⟨2, _⟩ => show win0_1.index t (2 : Fin 3) * 3 + 1 * k.val = k.val; omega

/-! ## What one grid point writes back -/

/-- The first result's array, from the two clouds: at (b, n, 0) the least row-form distance from point n of batch b. -/
def G2 (X Y : S4x4096x3.Idx → EReal) : S4x4096x1.Idx → EReal := fun i => dist1K X Y (ix2 (i 0) (i 1))
/-- The second result's array: at (b, 0, m) the least row-form distance to point m of batch b. -/
def G3 (X Y : S4x4096x3.Idx → EReal) : S4x1x4096.Idx → EReal := fun i => dist2K X Y (ix2 (i 0) (i 2))

/-- A block of batch b's points gives, in the first stored block, batch b's row of `dist1K`. -/
theorem stored1_eq (X Y : S4x4096x3.Idx → EReal) (x0 x1 : Vec Ideal S1x4096x3 .f32) (b : Fin 4)
    (h0 : ∀ n k, x0 (ix3 0 n k) = X (ix3 b n k)) (h1 : ∀ n k, x1 (ix3 0 n k) = Y (ix3 b n k)) (j : S1x4096x1.Idx) :
    k0_pay4 (F := Ideal) (k0_pay6 x0) (k0_pay7 x1) (k0_pay8 x0 x1) (k0_pay10 x1) (constant S4096x1024 .f32 0x00000000#32) j
      = dist1K X Y (ix2 b (j 1)) := by
  obtain ⟨z, n, z', rfl⟩ : ∃ (z : Fin 1) (n : Fin 4096) (z' : Fin 1), j = ix3 z n z' := ⟨j 0, j 1, j 2, eq_ix3 j⟩
  obtain rfl : z = 0 := Subsingleton.elim _ _
  obtain rfl : z' = 0 := Subsingleton.elim _ _
  rw [pay_dist1]
  unfold dist1K pt
  simp only [h0, h1]

/-- And, in the second stored block, batch b's row of `dist2K`. -/
theorem stored2_eq (X Y : S4x4096x3.Idx → EReal) (x0 x1 : Vec Ideal S1x4096x3 .f32) (b : Fin 4)
    (h0 : ∀ n k, x0 (ix3 0 n k) = X (ix3 b n k)) (h1 : ∀ n k, x1 (ix3 0 n k) = Y (ix3 b n k)) (j : S1x1x4096.Idx) :
    k0_pay5 (F := Ideal) (k0_pay6 x0) (k0_pay7 x1) (k0_pay9 x0 x1) (k0_pay10 x1) (constant S4096x1024 .f32 0x00000000#32) j
      = dist2K X Y (ix2 b (j 2)) := by
  obtain ⟨z, z', n, rfl⟩ : ∃ (z : Fin 1) (z' : Fin 1) (n : Fin 4096), j = ix3 z z' n := ⟨j 0, j 1, j 2, eq_ix3 j⟩
  obtain rfl : z = 0 := Subsingleton.elim _ _
  obtain rfl : z' = 0 := Subsingleton.elim _ _
  rw [pay_dist2]
  unfold dist2K pt
  simp only [h0, h1]

/-- What point t writes back through the first output window is block t of `G2` of the clouds. -/
theorem flushed2_eq (c : Dev nD) (t : Fin cfg0.N) :
    (dats m 0 c).flushed 2 t = ((cfg0.win 2).blk t).view.read (Elt Ideal) (G2 (V m c main_arg0) (V m c main_arg1)) := by
  show (cfg0.win 2).cut (grid0.coords t) ((dats m 0 c).after 2 t) = _
  rw [after0_2]
  unfold out0_2
  rw [View.canon_unit_zero hz]
  simp only [View.ld_unit_zero (S := S1x4096x3) hz]
  obtain ⟨-, -, -, -, -, -, e0, e1, e2, -⟩ := idx_facts t
  funext j
  refine (stored1_eq (V m c main_arg0) (V m c main_arg1) (iblk m c 0 t) (iblk m c 1 t) (batch t)
    (iblk0_apply m c t) (iblk1_apply m c t) j).trans ?_
  rw [View.read_apply]
  show dist1K (V m c main_arg0) (V m c main_arg1) _ = dist1K (V m c main_arg0) (V m c main_arg1) _
  congr 1
  funext a
  apply Fin.ext
  match a with
  | ⟨0, _⟩ => show t.val = win0_2.index t (0 : Fin 3) * 1 + 1 * (j 0).val; have hj : (j 0).val < 1 := (j 0).isLt; omega
  | ⟨1, _⟩ => show (j 1).val = win0_2.index t (1 : Fin 3) * 4096 + 1 * (j 1).val; omega

/-- What point t writes back through the second output window is block t of `G3` of the clouds. -/
theorem flushed3_eq (c : Dev nD) (t : Fin cfg0.N) :
    (dats m 0 c).flushed 3 t = ((cfg0.win 3).blk t).view.read (Elt Ideal) (G3 (V m c main_arg0) (V m c main_arg1)) := by
  show (cfg0.win 3).cut (grid0.coords t) ((dats m 0 c).after 3 t) = _
  rw [after0_3]
  unfold out0_3
  rw [View.canon_unit_zero hz]
  simp only [View.ld_unit_zero (S := S1x4096x3) hz]
  obtain ⟨-, -, -, -, -, -, -, -, -, e0, e1, e2⟩ := idx_facts t
  funext j
  refine (stored2_eq (V m c main_arg0) (V m c main_arg1) (iblk m c 0 t) (iblk m c 1 t) (batch t)
    (iblk0_apply m c t) (iblk1_apply m c t) j).trans ?_
  rw [View.read_apply]
  show dist2K (V m c main_arg0) (V m c main_arg1) _ = dist2K (V m c main_arg0) (V m c main_arg1) _
  congr 1
  funext a
  apply Fin.ext
  match a with
  | ⟨0, _⟩ => show t.val = win0_3.index t (0 : Fin 3) * 1 + 1 * (j 0).val; have hj : (j 0).val < 1 := (j 0).isLt; omega
  | ⟨1, _⟩ => show (j 2).val = win0_3.index t (2 : Fin 3) * 4096 + 1 * (j 2).val; omega

/-! ## The two result arrays after the run -/

/-- An index of the first result's array lies in point t's block iff every coordinate lies in the block's range. -/
theorem mem_blk2 (t : Fin cfg0.N) (i : S4x4096x1.Idx) :
    i ∈ ((cfg0.win 2).blk t).view.set ↔ ∀ a : Fin 3, win0_2.index t a * S1x4096x1.size a ≤ (i a).val ∧ (i a).val < win0_2.index t a * S1x4096x1.size a + S1x4096x1.size a := by
  show i ∈ ((View.whole main_v0_0).slice (win0_2.rect t)).set ↔ _
  rw [View.set_slice_whole, Rect.mem_set_unit]
  exact Iff.rfl

/-- The same for the second result's array. -/
theorem mem_blk3 (t : Fin cfg0.N) (i : S4x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v0_1).slice (win0_3.rect t)).set ↔ _
  rw [View.set_slice_whole, Rect.mem_set_unit]
  exact Iff.rfl

/-- Batch b's entries of the first result are written by grid point b. -/
theorem cover2 (i : S4x4096x1.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 1 := (i 2).isLt
  obtain ⟨t, ht⟩ : ∃ t : Fin cfg0.N, t.val = (i 0).val := ⟨⟨(i 0).val, lt_of_lt_of_eq hi0 N_0.symm⟩, rfl⟩
  refine ⟨t, flush0_2 t, ?_⟩
  obtain ⟨-, -, -, -, -, -, e0, e1, e2, -⟩ := idx_facts t
  rw [mem_blk2]
  intro a
  match a with
  | ⟨0, _⟩ => show win0_2.index t (0 : Fin 3) * 1 ≤ (i 0).val ∧ (i 0).val < win0_2.index t (0 : Fin 3) * 1 + 1; rw [e0]; omega
  | ⟨1, _⟩ => show win0_2.index t (1 : Fin 3) * 4096 ≤ (i 1).val ∧ (i 1).val < win0_2.index t (1 : Fin 3) * 4096 + 4096; rw [e1]; omega
  | ⟨2, _⟩ => show win0_2.index t (2 : Fin 3) * 1 ≤ (i 2).val ∧ (i 2).val < win0_2.index t (2 : Fin 3) * 1 + 1; rw [e2]; omega

/-- Batch b's entries of the second result are written by grid point b. -/
theorem cover3 (i : S4x1x4096.Idx) :
    ∃ t : Fin cfg0.N, (cfg0.win 3).flush t = true ∧ i ∈ ((cfg0.win 3).blk t).view.set := by
  have hi0 : (i 0).val < 4 := (i 0).isLt
  have hi1 : (i 1).val < 1 := (i 1).isLt
  have hi2 : (i 2).val < 4096 := (i 2).isLt
  obtain ⟨t, ht⟩ : ∃ t : Fin cfg0.N, t.val = (i 0).val := ⟨⟨(i 0).val, lt_of_lt_of_eq hi0 N_0.symm⟩, rfl⟩
  refine ⟨t, flush0_3 t, ?_⟩
  obtain ⟨-, -, -, -, -, -, -, -, -, e0, e1, e2⟩ := idx_facts t
  rw [mem_blk3]
  intro a
  match a with
  | ⟨0, _⟩ => show win0_3.index t (0 : Fin 3) * 1 ≤ (i 0).val ∧ (i 0).val < win0_3.index t (0 : Fin 3) * 1 + 1; rw [e0]; omega
  | ⟨1, _⟩ => show win0_3.index t (1 : Fin 3) * 1 ≤ (i 1).val ∧ (i 1).val < win0_3.index t (1 : Fin 3) * 1 + 1; rw [e1]; omega
  | ⟨2, _⟩ => show win0_3.index t (2 : Fin 3) * 4096 ≤ (i 2).val ∧ (i 2).val < win0_3.index t (2 : Fin 3) * 4096 + 4096; rw [e2]; omega

/-- After the last grid point the first result's array holds `G2` of the clouds. -/
theorem final2 (c : Dev nD) : (dats m 0 c).arrAt 2 cfg0.N = G2 (V m c main_arg0) (V m c main_arg1) :=
  (dats m 0 c).arrAt_eq_of_cover 2 _ (fun t _ => flushed2_eq m c t) cover2

/-- And the second result's array holds `G3` of the clouds. -/
theorem final3 (c : Dev nD) : (dats m 0 c).arrAt 3 cfg0.N = G3 (V m c main_arg0) (V m c main_arg1) :=
  (dats m 0 c).arrAt_eq_of_cover 3 _ (fun t _ => flushed3_eq m c t) cover3

/-! ## The two reshapes after the region -/

/-- The first result: the reshape of the first result's array drops its trailing unit axis. -/
theorem tail1 (c : Dev nD) :
    Pipeline.afterTail₀ cfgs (dats m) 0 (V0 m) [hostOps1] c main_v1 = dist1K (V m c main_arg0) (V m c main_arg1) := by
  unfold Pipeline.afterTail₀
  show StableHlo.after hostOps1 _ (Proc.devRef .tc main_v1) = _
  after_results
  refine funext fun (i : S4x4096.Idx) => ?_
  show shapeCast S4x4096 (Pipeline.withArrays (cfgs 0).spec c (V0 m c) (fun w => (dats m 0 c).arrAt w (cfgs 0).N) (Proc.devRef .tc main_v0_0)) shapeCasts_S4x4096x1_S4x4096 i = _
  rw [show Pipeline.withArrays (cfgs 0).spec c (V0 m c) (fun w => (dats m 0 c).arrAt w (cfgs 0).N) (Proc.devRef .tc main_v0_0) = (dats m 0 c).arrAt 2 cfg0.N from Pipeline.withArrays_arr spec0 launch0.win.arr_inj c _ _ 2, final2]
  refine (shapeCast_apply (s := S4x4096x1) (t := S4x4096) _ shapeCasts_S4x4096x1_S4x4096 i (ix3 (i 0) (i 1) (0 : Fin 1)) (by
    rw [Shape.rowMajor_val_three, Shape.rowMajor_val_two]
    show ((i 0).val * 4096 + (i 1).val) * 1 + 0 = (i 0).val * 4096 + (i 1).val
    omega)).trans ?_
  exact congrArg (dist1K (V m c main_arg0) (V m c main_arg1)) (eq_ix2 i).symm

/-- The second result: the reshape of the second result's array drops its middle unit axis. -/
theorem tail2 (c : Dev nD) :
    Pipeline.afterTail₀ cfgs (dats m) 0 (V0 m) [hostOps1] c main_v2 = dist2K (V m c main_arg0) (V m c main_arg1) := by
  unfold Pipeline.afterTail₀
  show StableHlo.after hostOps1 _ (Proc.devRef .tc main_v2) = _
  after_results
  refine funext fun (i : S4x4096.Idx) => ?_
  show shapeCast S4x4096 (Pipeline.withArrays (cfgs 0).spec c (V0 m c) (fun w => (dats m 0 c).arrAt w (cfgs 0).N) (Proc.devRef .tc main_v0_1)) shapeCasts_S4x1x4096_S4x4096 i = _
  rw [show Pipeline.withArrays (cfgs 0).spec c (V0 m c) (fun w => (dats m 0 c).arrAt w (cfgs 0).N) (Proc.devRef .tc main_v0_1) = (dats m 0 c).arrAt 3 cfg0.N from Pipeline.withArrays_arr spec0 launch0.win.arr_inj c _ _ 3, final3]
  refine (shapeCast_apply (s := S4x1x4096) (t := S4x4096) _ shapeCasts_S4x1x4096_S4x4096 i (ix3 (i 0) (0 : Fin 1) (i 1)) (by
    rw [Shape.rowMajor_val_three, Shape.rowMajor_val_two]
    show ((i 0).val * 1 + 0) * 4096 + (i 1).val = (i 0).val * 4096 + (i 1).val
    omega)).trans ?_
  exact congrArg (dist2K (V m c main_arg0) (V m c main_arg1)) (eq_ix2 i).symm

/-! ## The run, read -/

/-- Every run of the kernel's program ends with the two results at the row-form minima of the clouds it was launched on,
    the clouds unchanged. -/
theorem run : θ_run defs (onTc (τ := τ) (main (F := Ideal))) ⟨m, fun _ => 0, ρ⟩ fun r => ∀ c : Dev nD,
      r.2.mem ((c.tc : Thread nD τ).loc main_v1) = dist1K (m ((c.tc : Thread nD τ).loc main_arg0)) (m ((c.tc : Thread nD τ).loc main_arg1))
      ∧ r.2.mem ((c.tc : Thread nD τ).loc main_v2) = dist2K (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v1 (Pipeline.mem_restRefs_of main_v1 rfl (by decide))).trans (tail1 m c),
      ((h c).2 main_v2 (Pipeline.mem_restRefs_of main_v2 rfl (by decide))).trans (tail2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Chamfer.Kernel

end
-- ==== Proof.RefValue.lean ====
/-
  The reference's two results are the two minima of the norm form of the squared distance: its stages are read at an
  entry one after another, and each reduction over one axis is the fold of the least value over that axis's coordinates.
-/
import proofs.«110402_g68685116998012_cont_9to1_m_1223_23_alg».proof.Proof.Gen.ReferenceIdeal.Read
import proofs.«110402_g68685116998012_cont_9to1_m_1223_23_alg».proof.Proof.Spec
import Idealize.ShloMosaic.PureOps.Ideal.Laws

noncomputable section

open scoped BigOperators

namespace Cert.Chamfer

open Idealize.ShloMosaic Idealize.ShloMosaic.ValueIdx

open Cert.ReferenceIdeal

/-- The table of differences at batch `b`, point `n` of the first cloud and point `m` of the second is the squared
    distance in its norm form: the two broadcast squared norms, each the zero word plus three squares, added, less
    twice the inner product over the three coordinates. -/
theorem ref_v12_at (x y : (⟨S4x4096x3, .f32⟩ : BufTy).Contents (Elt Ideal)) (b : Fin 4) (n m : Fin 4096) :
    Read.val_main_v12 (F := Ideal) x y (ix3 b n m) = pd (pt x b n) (pt y b m) := by
  rw [Read.val_main_v12_apply, Read.val_main_v9_apply, Read.val_main_v11_apply, Read.val_main_v7_apply,
    Read.val_main_v5_apply, Read.val_main_v1_apply, Read.val_main_v8_apply, Read.val_main_v6_apply,
    Read.val_main_v3_apply, Read.val_main_v10_apply, Read.val_main_v4_apply, Read.val_main_cst_apply,
    Read.val_main_cst_0_apply, Read.val_main_cst_1_apply]
  simp only [Read.val_main_v0_apply, Read.val_main_v2_apply]
  -- the first norm is read at (b, n, k): the broadcasts along the second cloud's axis forget m
  have e1 : ∀ k : Fin 3, Read.idx_main_v1 (Read.idx_main_v5 (Read.idx_main_v7 (ix3 b n m))) k = ix3 b n k := fun k =>
    funext fun a => Fin.ext (by match a with | ⟨0, _⟩ => rfl | ⟨1, _⟩ => rfl | ⟨2, _⟩ => rfl)
  -- the second norm is read at (b, m, k): the broadcasts along the first cloud's axis forget n
  have e2 : ∀ k : Fin 3, Read.idx_main_v3 (Read.idx_main_v6 (Read.idx_main_v8 (ix3 b n m))) k = ix3 b m k := fun k =>
    funext fun a => Fin.ext (by match a with | ⟨0, _⟩ => rfl | ⟨1, _⟩ => rfl | ⟨2, _⟩ => rfl)
  -- the inner product pairs coordinate k of point n with coordinate k of point m, in batch b
  have e3 : ∀ k : Fin 3, Read.lidx_main_v4 (ix3 b n m) k = ix3 b n k := fun k =>
    funext fun a => Fin.ext (by match a with | ⟨0, _⟩ => rfl | ⟨1, _⟩ => rfl | ⟨2, _⟩ => rfl)
  have e4 : ∀ k : Fin 3, Read.ridx_main_v4 (ix3 b n m) k = ix3 b m k := fun k =>
    funext fun a => Fin.ext (by match a with | ⟨0, _⟩ => rfl | ⟨1, _⟩ => rfl | ⟨2, _⟩ => rfl)
  simp only [e1, e2, e3, e4]
  rfl

/-- Over the last axis, the entry above (b, n) with coordinate m inserted is (b, n, m). -/
theorem ref_lift_d2 (h : S4x4096x4096.Reduces [2] S4x4096) (b : Fin 4) (n : Fin 4096) (m : Fin 4096) :
    h.lift (ix2 b n) m = ix3 b n m :=
  funext fun a => Fin.ext (by match a with | ⟨0, _⟩ => rfl | ⟨1, _⟩ => rfl | ⟨2, _⟩ => rfl)

/-- Over the middle axis, the entry above (b, n) with coordinate m inserted is (b, m, n). -/
theorem ref_lift_d1 (h : S4x4096x4096.Reduces [1] S4x4096) (b : Fin 4) (n : Fin 4096) (m : Fin 4096) :
    h.lift (ix2 b n) m = ix3 b m n :=
  funext fun a => Fin.ext (by match a with | ⟨0, _⟩ => rfl | ⟨1, _⟩ => rfl | ⟨2, _⟩ => rfl)

theorem ref_dist1 (x y : (⟨S4x4096x3, .f32⟩ : BufTy).Contents (Elt Ideal)) :
    Cert.ReferenceIdeal.Read.val_main_v13 (F := Ideal) x y = dist1 x y := by
  funext i
  obtain ⟨b, n, rfl⟩ : ∃ (b : Fin 4) (n : Fin 4096), i = ix2 b n := ⟨i 0, i 1, eq_ix2 i⟩
  unfold Read.val_main_v13
  have h : S4x4096x4096.Reduces [2] S4x4096 := by decide
  -- the least value over the last axis, begun from the word of +∞, folds over the second cloud's points
  rw [Host.reduce_eq_fold_single _ _ _ _ h]
  have hf : (Read.val_main_v12 (F := Ideal) x y ∘ h.lift (ix2 b n))
      = fun m : Fin 4096 => pd (pt x b n) (pt y b m) := by
    refine funext fun (m : Fin 4096) => ?_
    exact (congrArg (Read.val_main_v12 (F := Ideal) x y) (ref_lift_d2 h b n m)).trans (ref_v12_at x y b n m)
  rw [hf]
  rfl

theorem ref_dist2 (x y : (⟨S4x4096x3, .f32⟩ : BufTy).Contents (Elt Ideal)) :
    Cert.ReferenceIdeal.Read.val_main_v14 (F := Ideal) x y = dist2 x y := by
  funext i
  obtain ⟨b, m, rfl⟩ : ∃ (b : Fin 4) (m : Fin 4096), i = ix2 b m := ⟨i 0, i 1, eq_ix2 i⟩
  unfold Read.val_main_v14
  have h : S4x4096x4096.Reduces [1] S4x4096 := by decide
  -- the least value over the middle axis, begun from the word of +∞, folds over the first cloud's points
  rw [Host.reduce_eq_fold_single _ _ _ _ h]
  have hf : (Read.val_main_v12 (F := Ideal) x y ∘ h.lift (ix2 b m))
      = fun n : Fin 4096 => pd (pt x b n) (pt y b m) := by
    refine funext fun (n : Fin 4096) => ?_
    exact (congrArg (Read.val_main_v12 (F := Ideal) x y) (ref_lift_d1 h b m n)).trans (ref_v12_at x y b n m)
  rw [hf]
  rfl

end Cert.Chamfer

end
-- ==== Proof.lean ====
/-
  Chamfer distances of two point clouds: a kernel that builds every squared distance as one inner product of two
  rows of eight, against the reference |p|² + |q|² − 2·(p·q).

  For each batch the kernel extends point p of the first cloud to the row (1·p, |p|², |p|² − |p|², 1, 1, 0) and point q
  of the second to (−2·q, 1, 1, |q|², |q|² − |q|², 0); the inner product of the two rows is
  −2·(p·q) + |p|² + (|p|² − |p|²) + |q|² + (|q|² − |q|²) + 0. The second cloud is cut into four runs of 1024 points, one
  matrix product per run. The first result takes the least of the four products entry by entry and then the least along
  each row; the second takes the least down each column and sets the four runs end to end. Over the extended reals
  both are minima, from +∞, over all 4096 points of the other cloud (`dist1K`, `dist2K`).

  The reference computes the same two minima of |p|² + |q|² − 2·(p·q) (`dist1`, `dist2`). The two squared distances
  agree when every coordinate is a real number, which is what the precondition says: then |p|² is real, so
  |p|² − |p|² is zero, and −2 distributes over the three products (`kd_eq_pd`). At an infinite coordinate neither
  step holds, so the precondition is used.

  The kernel changes format twice and widens back; over the extended reals each round trip is the identity, which is
  the content of the two conjuncts of `preserves`.
-/
import proofs.«110402_g68685116998012_cont_9to1_m_1223_23_alg».proof.Defs
import proofs.«110402_g68685116998012_cont_9to1_m_1223_23_alg».proof.Proof.Gen.Kernel
import proofs.«110402_g68685116998012_cont_9to1_m_1223_23_alg».proof.Proof.Gen.Kernel.Skeleton
import proofs.«110402_g68685116998012_cont_9to1_m_1223_23_alg».proof.Proof.Gen.Kernel.Launch
import proofs.«110402_g68685116998012_cont_9to1_m_1223_23_alg».proof.Proof.Gen.Kernel.Points
import proofs.«110402_g68685116998012_cont_9to1_m_1223_23_alg».proof.Proof.Gen.Kernel.Frame
import proofs.«110402_g68685116998012_cont_9to1_m_1223_23_alg».proof.Proof.Gen.KernelIdeal
import proofs.«110402_g68685116998012_cont_9to1_m_1223_23_alg».proof.Proof.Gen.KernelIdeal.Skeleton
import proofs.«110402_g68685116998012_cont_9to1_m_1223_23_alg».proof.Proof.Gen.KernelIdeal.Launch
import proofs.«110402_g68685116998012_cont_9to1_m_1223_23_alg».proof.Proof.Gen.KernelIdeal.Points
import proofs.«110402_g68685116998012_cont_9to1_m_1223_23_alg».proof.Proof.Gen.KernelIdeal.Frame
import proofs.«110402_g68685116998012_cont_9to1_m_1223_23_alg».proof.Proof.Gen.ReferenceIdeal
import proofs.«110402_g68685116998012_cont_9to1_m_1223_23_alg».proof.Proof.Gen.Pre_finite_inputs
import proofs.«110402_g68685116998012_cont_9to1_m_1223_23_alg».proof.Proof.Gen.ReferenceIdeal.Run
import proofs.«110402_g68685116998012_cont_9to1_m_1223_23_alg».proof.Proof.Gen.ReferenceIdeal.Read
import proofs.«110402_g68685116998012_cont_9to1_m_1223_23_alg».proof.Proof.Algebra
import proofs.«110402_g68685116998012_cont_9to1_m_1223_23_alg».proof.Proof.Finite
import proofs.«110402_g68685116998012_cont_9to1_m_1223_23_alg».proof.Proof.KValue
import proofs.«110402_g68685116998012_cont_9to1_m_1223_23_alg».proof.Proof.RefValue
import Idealize.ShloMosaic.Adequacy
import Idealize.ShloMosaic.Init

noncomputable section

namespace Cert.Chamfer

open Idealize.ShloMosaic

/-- On clouds of real coordinates the minima of the row form are the minima of the norm form. -/
theorem dist1K_eq (x y : Cloud.Idx → EReal) (hx : ∀ i, ∃ r : ℝ, x i = (r : EReal)) (hy : ∀ i, ∃ r : ℝ, y i = (r : EReal)) :
    dist1K x y = dist1 x y := by
  funext i
  unfold dist1K dist1
  exact congrArg (fun f => (Finset.univ : Finset (Fin 4096)).fold min topW f)
    (funext fun n => kd_eq_pd _ _ (fun k => hx _) (fun k => hy _))

theorem dist2K_eq (x y : Cloud.Idx → EReal) (hx : ∀ i, ∃ r : ℝ, x i = (r : EReal)) (hy : ∀ i, ∃ r : ℝ, y i = (r : EReal)) :
    dist2K x y = dist2 x y := by
  funext i
  unfold dist2K dist2
  exact congrArg (fun f => (Finset.univ : Finset (Fin 4096)).fold min topW f)
    (funext fun n => kd_eq_pd _ _ (fun k => hx _) (fun k => hy _))

end Cert.Chamfer

namespace Cert.Proof

open Idealize.ShloMosaic Idealize.SL.Sem Cert.Chamfer

/-- The kernel's program runs and leaves the clouds as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves the clouds as they were: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Narrowing the squared norms to sixteen bits and widening back is the identity over the extended reals, for each
    of the two clouds. -/
theorem preserves : Cert.preserves_Kernel_KernelIdeal :=
  ⟨IdealRules.truncf_extf.statement _ .f32 .bf16, IdealRules.truncf_extf.statement _ .f32 .bf16⟩

/-- Both programs end with `dist1` and `dist2` of the clouds: the kernel with the row-form minima, which are these
    on real coordinates; the reference with its two reductions read as minima. -/
theorem algebraic : Cert.algebraic_KernelIdeal_ReferenceIdeal := by
  intro m ρ m' ρ' hpre hagree
  refine ⟨fun c => dist1 (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
    fun c => dist2 (m ((c.tc : Thread Cert.KernelIdeal.nD Cert.KernelIdeal.τ).loc Cert.KernelIdeal.main_arg0))
        (m ((c.tc : Thread Cert.KernelIdeal.nD Cert.KernelIdeal.τ).loc Cert.KernelIdeal.main_arg1)), ?_, ?_⟩
  · refine (θ_run Cert.KernelIdeal.defs _ _).mono (fun r h c => ?_) (Cert.Chamfer.Kernel.run m ρ)
    obtain ⟨h1, h2, h3, h4⟩ := h c
    obtain ⟨ha, hb⟩ := real_of_finite _ _ (hpre c)
    exact ⟨h1.trans (dist1K_eq _ _ ha hb), h2.trans (dist2K_eq _ _ ha hb), h3, h4⟩
  · refine (θ_run Cert.ReferenceIdeal.defs _ _).mono (fun r h c => ?_) (Cert.ReferenceIdeal.Value.run (F := Ideal) m' ρ')
    obtain ⟨h1, h2, h3, h4⟩ := h c
    refine ⟨h1.trans ((Cert.ReferenceIdeal.Read.val_main_v13_eq _ _).trans ((ref_dist1 _ _).trans ?_)),
      h2.trans ((Cert.ReferenceIdeal.Read.val_main_v14_eq _ _).trans ((ref_dist2 _ _).trans ?_)), h3, h4⟩
    · rw [(hagree c).1, (hagree c).2]
    · rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
